-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x11008 : Shape := ⟨2, ![4096, 11008]⟩
abbrev S352256x1 : Shape := ⟨2, ![352256, 1]⟩
abbrev S352256x128 : Shape := ⟨2, ![352256, 128]⟩
abbrev S_ : Shape := ⟨0, ![]⟩

class Facts : Prop where
  bcast_S_S4096x11008 : S_.BroadcastsInDim S4096x11008 (![] : Fin 0 → Fin S4096x11008.rank)
  reducesTo_S4096x11008_S_d0_1 : S4096x11008.ReducesTo [0, 1] S_
  h_S_ : 0 < S_.numel
  bcast_S_S352256x1 : S_.BroadcastsInDim S352256x1 (![] : Fin 0 → Fin S352256x1.rank)
  reducesTo_S352256x1_S_d0_1 : S352256x1.ReducesTo [0, 1] S_
  bcast_S_S352256x128 : S_.BroadcastsInDim S352256x128 (![] : Fin 0 → Fin S352256x128.rank)
  reducesTo_S352256x128_S_d0_1 : S352256x128.ReducesTo [0, 1] S_

variable [Facts]

def fn_part1 {F : FTy → Type} [FloatOps F] (main_v13 : IVec S_ 1) (main_v16 : IVec S352256x128 1) : IVec S_ 1 :=
  let main_c_5 : IVec S_ 1 := constantI S_ 1 1#1
  let main_v17 : IVec S_ 1 := (fun x v => Host.reduce IntOp.andi x v reducesTo_S352256x128_S_d0_1 h_S_) main_v16 main_c_5
  let main_v18 : IVec S_ 1 := andi main_v13 main_v17
  main_v18

def fn {F : FTy → Type} [FloatOps F] (main_arg0 : FVec F S4096x11008 .f32) (main_arg1 : FVec F S352256x1 .f32) (main_arg2 : FVec F S352256x1 .f32) (main_arg3 : FVec F S352256x128 .f32) : IVec S_ 1 :=
  let main_v0 : FVec F S4096x11008 .f32 := Host.absf main_arg0
  let main_cst : FVec F S_ .f32 := constant S_ .f32 0x7F800000#32
  let main_v1 : FVec F S4096x11008 .f32 := broadcastInDim S4096x11008 ![] bcast_S_S4096x11008 main_cst
  let main_v2 : IVec S4096x11008 1 := cmpf .olt main_v0 main_v1
  let main_c : IVec S_ 1 := constantI S_ 1 1#1
  let main_v3 : IVec S_ 1 := (fun x v => Host.reduce IntOp.andi x v reducesTo_S4096x11008_S_d0_1 h_S_) main_v2 main_c
  let main_v4 : FVec F S352256x1 .f32 := Host.absf main_arg1
  let main_cst_0 : FVec F S_ .f32 := constant S_ .f32 0x7F800000#32
  let main_v5 : FVec F S352256x1 .f32 := broadcastInDim S352256x1 ![] bcast_S_S352256x1 main_cst_0
  let main_v6 : IVec S352256x1 1 := cmpf .olt main_v4 main_v5
  let main_c_1 : IVec S_ 1 := constantI S_ 1 1#1
  let main_v7 : IVec S_ 1 := (fun x v => Host.reduce IntOp.andi x v reducesTo_S352256x1_S_d0_1 h_S_) main_v6 main_c_1
  let main_v8 : IVec S_ 1 := andi main_v3 main_v7
  let main_v9 : FVec F S352256x1 .f32 := Host.absf main_arg2
  let main_cst_2 : FVec F S_ .f32 := constant S_ .f32 0x7F800000#32
  let main_v10 : FVec F S352256x1 .f32 := broadcastInDim S352256x1 ![] bcast_S_S352256x1 main_cst_2
  let main_v11 : IVec S352256x1 1 := cmpf .olt main_v9 main_v10
  let main_c_3 : IVec S_ 1 := constantI S_ 1 1#1
  let main_v12 : IVec S_ 1 := (fun x v => Host.reduce IntOp.andi x v reducesTo_S352256x1_S_d0_1 h_S_) main_v11 main_c_3
  let main_v13 : IVec S_ 1 := andi main_v8 main_v12
  let main_v14 : FVec F S352256x128 .f32 := Host.absf main_arg3
  let main_cst_4 : FVec F S_ .f32 := constant S_ .f32 0x7F800000#32
  let main_v15 : FVec F S352256x128 .f32 := broadcastInDim S352256x128 ![] bcast_S_S352256x128 main_cst_4
  let main_v16 : IVec S352256x128 1 := cmpf .olt main_v14 main_v15
  fn_part1 (F := F) main_v13 main_v16
-- ==== Kernel.lean ====
abbrev S4096x11008 : Shape := ⟨2, ![4096, 11008]⟩
abbrev S352256x1 : Shape := ⟨2, ![352256, 1]⟩
abbrev S352256x128 : Shape := ⟨2, ![352256, 128]⟩
abbrev S2048x128 : Shape := ⟨2, ![2048, 128]⟩
abbrev S2048x1 : Shape := ⟨2, ![2048, 1]⟩
abbrev S2048 : Shape := ⟨1, ![2048]⟩

abbrev nBuf : Space → Nat
  | .hbm => 7
  | .vmem => 10
  | .smem => 0
  | _ => 0

abbrev bufTy : (tb : Table) → Fin (tcTables nBuf tb) → BufTy
  | .hbm, ⟨0, _⟩ => ⟨S4096x11008, .f32⟩
  | .hbm, ⟨1, _⟩ => ⟨S352256x1, .f32⟩
  | .hbm, ⟨2, _⟩ => ⟨S352256x1, .f32⟩
  | .hbm, ⟨3, _⟩ => ⟨S352256x128, .f32⟩
  | .hbm, ⟨4, _⟩ => ⟨S352256x128, .f32⟩
  | .hbm, ⟨5, _⟩ => ⟨S352256x128, .f32⟩
  | .hbm, ⟨6, _⟩ => ⟨S4096x11008, .f32⟩
  | .local _ .vmem, ⟨0, _⟩ => ⟨S2048x128, .f32⟩
  | .local _ .vmem, ⟨1, _⟩ => ⟨S2048x128, .f32⟩
  | .local _ .vmem, ⟨2, _⟩ => ⟨S2048x1, .f32⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![172], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4096x11008_S352256x128 : S4096x11008.ShapeCasts S352256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  reduces_S2048x128_S2048 : S2048x128.Reduces [1] S2048
  shapeCasts_S2048_S2048x1 : S2048.ShapeCasts S2048x1
  broadcasts_S2048x1_S2048x128 : S2048x1.Broadcasts S2048x128
  shapeCasts_S352256x128_S4096x11008 : S352256x128.ShapeCasts S4096x11008
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S352256x128.size a
  hwx0_0 : ∀ i : grid0.Coords, EltTy.bits .f32 = 32 ∨ (Rect.block (s := S352256x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S352256x1.size a
  hwx0_1 : ∀ i : grid0.Coords, EltTy.bits .f32 = 32 ∨ (Rect.block (s := S352256x1) S2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S352256x1.size a
  hwx0_2 : ∀ i : grid0.Coords, EltTy.bits .f32 = 32 ∨ (Rect.block (s := S352256x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S352256x128.size a
  hwx0_3 : ∀ i : grid0.Coords, EltTy.bits .f32 = 32 ∨ (Rect.block (s := S352256x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S352256x128.size a
  hwx0_4 : ∀ i : grid0.Coords, EltTy.bits .f32 = 32 ∨ (Rect.block (s := S352256x128) S2048x128.size (cc0_transform_4 i) (hinb0_4 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x11008 : Shape := ⟨2, ![4096, 11008]⟩
abbrev S352256x1 : Shape := ⟨2, ![352256, 1]⟩
abbrev S352256x128 : Shape := ⟨2, ![352256, 128]⟩
abbrev S_ : Shape := ⟨0, ![]⟩
abbrev S352256 : Shape := ⟨1, ![352256]⟩

abbrev nBuf : Space → Nat
  | .hbm => 52
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S352256x1, .f32⟩
  | .hbm, ⟨2, _⟩ => ⟨S352256x1, .f32⟩
  | .hbm, ⟨3, _⟩ => ⟨S352256x128, .f32⟩
  | .hbm, ⟨4, _⟩ => ⟨S352256x128, .f32⟩
  | .hbm, ⟨5, _⟩ => ⟨S_, .f32⟩
  | .hbm, ⟨6, _⟩ => ⟨S352256, .f32⟩
  | .hbm, ⟨7, _⟩ => ⟨S352256x1, .f32⟩
  | .hbm, ⟨8, _⟩ => ⟨S_, .f32⟩
  | .hbm, ⟨9, _⟩ => ⟨S352256x1, .f32⟩
  | .hbm, ⟨10, _⟩ => ⟨S352256x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S352256x1, .f32⟩
  | .hbm, ⟨15, _⟩ => ⟨S352256x1, .f32⟩
  | .hbm, ⟨16, _⟩ => ⟨S_, .f32⟩
  | .hbm, ⟨17, _⟩ => ⟨S352256x1, .f32⟩
  | .hbm, ⟨18, _⟩ => ⟨S352256x1, .f32⟩
  | .hbm, ⟨19, _⟩ => ⟨S352256x1, .f32⟩
  | .hbm, ⟨20, _⟩ => ⟨S352256x1, .f32⟩
  | .hbm, ⟨21, _⟩ => ⟨S352256x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S352256x1, .f32⟩
  | .hbm, ⟨26, _⟩ => ⟨S352256x1, .f32⟩
  | .hbm, ⟨27, _⟩ => ⟨S_, .f32⟩
  | .hbm, ⟨28, _⟩ => ⟨S352256x1, .f32⟩
  | .hbm, ⟨29, _⟩ => ⟨S352256x1, .f32⟩
  | .hbm, ⟨30, _⟩ => ⟨S352256x1, .f32⟩
  | .hbm, ⟨31, _⟩ => ⟨S352256x128, .f32⟩
  | .hbm, ⟨32, _⟩ => ⟨S352256x128, .f32⟩
  | .hbm, ⟨33, _⟩ => ⟨S352256x128, .f32⟩
  | .hbm, ⟨34, _⟩ => ⟨S352256x128, .f32⟩
  | .hbm, ⟨35, _⟩ => ⟨S352256x128, .f32⟩
  | .hbm, ⟨36, _⟩ => ⟨S352256x128, .f32⟩
  | .hbm, ⟨37, _⟩ => ⟨S352256x128, .f32⟩
  | .hbm, ⟨38, _⟩ => ⟨S352256x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S352256x128, .f32⟩
  | .hbm, ⟨43, _⟩ => ⟨S352256x128, .f32⟩
  | .hbm, ⟨44, _⟩ => ⟨S_, .f32⟩
  | .hbm, ⟨45, _⟩ => ⟨S352256x128, .f32⟩
  | .hbm, ⟨46, _⟩ => ⟨S352256x128, .f32⟩
  | .hbm, ⟨47, _⟩ => ⟨S352256x128, .f32⟩
  | .hbm, ⟨48, _⟩ => ⟨S352256x128, .f32⟩
  | .hbm, ⟨49, _⟩ => ⟨S352256x128, .f32⟩
  | .hbm, ⟨50, _⟩ => ⟨S352256x128, .f32⟩
  | .hbm, ⟨51, _⟩ => ⟨S4096x11008, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_cst_4 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_5 : Ref sig .tc := ⟨.hbm, 39, rfl⟩
abbrev main_cst_6 : Ref sig .tc := ⟨.hbm, 40, rfl⟩
abbrev main_call4_v0 : Ref sig .tc := ⟨.hbm, 41, rfl⟩
abbrev main_call4_v1 : Ref sig .tc := ⟨.hbm, 42, rfl⟩
abbrev main_call4_v2 : Ref sig .tc := ⟨.hbm, 43, rfl⟩
abbrev main_call4_v3 : Ref sig .tc := ⟨.hbm, 44, rfl⟩
abbrev main_call4_v4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩

abbrev nD : Nat := 1
abbrev τ : Topo := Topo.v7x

variable {F : FTy → Type} [FloatOps F]

class Facts₀ : Prop where
  shapeCasts_S4096x11008_S352256x128 : S4096x11008.ShapeCasts S352256x128
  reducesTo_S352256x128_S352256_d1 : S352256x128.ReducesTo [1] S352256
  h_S_ : 0 < S_.numel
  bcast_S352256_S352256x1_0 : S352256.BroadcastsInDim S352256x1 (![0] : Fin 1 → Fin S352256x1.rank)
  bcast_S_S352256x1 : S_.BroadcastsInDim S352256x1 (![] : Fin 0 → Fin S352256x1.rank)
  bcast_S352256x1_S352256x128_0_1 : S352256x1.BroadcastsInDim S352256x128 (![0, 1] : Fin 2 → Fin S352256x128.rank)
  bcast_S_S352256x128 : S_.BroadcastsInDim S352256x128 (![] : Fin 0 → Fin S352256x128.rank)
  shapeCasts_S352256x128_S4096x11008 : S352256x128.ShapeCasts S4096x11008

variable [Facts₀]

class Facts : Prop extends Facts₀ where

variable [Facts]
-- ==== Proof.Spec.lean ====
/-
  The arithmetic of one group of the affine fake quantizer, stated once over the extended reals, free of
  either program.

  A group is a row of 128 entries `x` with a perturbation row `p` and two per-group parameters `a` (the
  learned range) and `s` (the shift). With `mn` the minimum of the row,
    scale  = clip(a / 255, 1e-5, 1e4)
    zp     = round(clip(-(mn + s) / scale, -1e4, 1e4))
    result = (clip(round((x + p) / scale) + zp, 0, 255) - zp) * scale
  where `round` is to nearest, ties to even, and every float literal stays the word both programs spell.

  The reference rounds through the straight-through form `v + (round v - v)`; on a real `v` that is
  `round v` (`ste_real`), and `v = (x + p) / scale` is real whenever `x` and `p` are, because the clip
  puts `scale` between two positive reals (`scale_real`). On the extended reals the law fails at the
  infinities (`⊤ - ⊤ = ⊥`), which is where the finiteness of the inputs is used.
-/
import Idealize.ShloMosaic.PureOps.Ideal
import Idealize.ShloMosaic.PureOps.Ideal.Laws
import Idealize.ShloMosaic.Lib.ValueIdx

noncomputable section

namespace Cert.Quant

open Idealize.ShloMosaic Idealize.ShloMosaic.ValueIdx

/-! ## The two literals whose values matter: the clip bounds of the scale -/

/-- The lower clip bound of the scale, the float nearest 1e-5, as a real. -/
def lo : ℝ := 10995116 * (2 : ℝ) ^ (-40 : ℤ)

theorem lo_pos : 0 < lo := by unfold lo; positivity

theorem lo_le : lo ≤ 10000 := by
  unfold lo
  rw [zpow_neg, zpow_ofNat]
  norm_num

theorem lo_real : Ideal.ofBits .f32 0x3727C5AC#32 = ((lo : ℝ) : EReal) := by
  unfold lo
  simp [Ideal.ofBits, Ideal.ieee, -EReal.coe_mul]

/-- The upper clip bound of the scale is the real 10000. -/
theorem hi_real : Ideal.ofBits .f32 0x461C4000#32 = ((10000 : ℝ) : EReal) := by
  simp [Ideal.ofBits, Ideal.ieee, -EReal.coe_mul]; norm_num

/-- The zero word denotes 0, so subtracting from it negates. -/
theorem zero_word_sub (y : EReal) : Ideal.ofBits .f32 0x00000000#32 - y = -y := by
  rw [Ideal.ofBits_zero_f32, zero_sub]

/-! ## One group's arithmetic -/

/-- The minimum of a group's 128 entries, folded from the word of +∞. -/
def rowMin (f : Fin 128 → EReal) : EReal :=
  (Finset.univ : Finset (Fin 128)).fold (FloatOps.minimumf (F := Ideal) (φ := .f32)) (FloatOps.ofBits (F := Ideal) .f32 0x7F800000#32) f

/-- The group's scale: its range over 255, clipped to [1e-5, 1e4]. -/
def scale (a : EReal) : EReal :=
  min (Ideal.ofBits .f32 0x461C4000#32) (max (Ideal.ofBits .f32 0x3727C5AC#32) (Ideal.div a (Ideal.ofBits .f32 0x437F0000#32)))

/-- The group's rounded zero point. -/
def zeroPt (mn a s : EReal) : EReal :=
  Ideal.liftRound Ideal.roundHalfEven
    (min (Ideal.ofBits .f32 0x461C4000#32) (max (Ideal.ofBits .f32 0xC61C4000#32) (Ideal.div (-(mn + s)) (scale a))))

/-- Quantize and dequantize one entry, rounding directly. -/
def quant (mn a s x p : EReal) : EReal :=
  (min (Ideal.ofBits .f32 0x437F0000#32)
      (max (Ideal.ofBits .f32 0x00000000#32)
        (Ideal.liftRound Ideal.roundHalfEven (Ideal.div (x + p) (scale a)) + zeroPt mn a s))
    - zeroPt mn a s) * scale a

/-- The same with the rounding written straight-through, `v + (round v - v)`. -/
def quantSte (mn a s x p : EReal) : EReal :=
  (min (Ideal.ofBits .f32 0x437F0000#32)
      (max (Ideal.ofBits .f32 0x00000000#32)
        ((Ideal.div (x + p) (scale a)
            + (Ideal.liftRound Ideal.roundHalfEven (Ideal.div (x + p) (scale a)) - Ideal.div (x + p) (scale a)))
          + zeroPt mn a s))
    - zeroPt mn a s) * scale a

/-! ## The straight-through rounding is the rounding, on reals -/

/-- An extended real between two reals is a real. -/
theorem real_of_between {z : EReal} {lo hi : ℝ} (h1 : (lo : EReal) ≤ z) (h2 : z ≤ (hi : EReal)) : ∃ r : ℝ, z = r := by
  induction z using EReal.rec with
  | bot => exact absurd (le_bot_iff.mp h1) (EReal.coe_ne_bot _)
  | coe r => exact ⟨r, rfl⟩
  | top => exact absurd (top_le_iff.mp h2) (EReal.coe_ne_top _)

/-- Whatever the range `a`, the clipped scale is a positive real. -/
theorem scale_real (a : EReal) : ∃ r : ℝ, r ≠ 0 ∧ scale a = r := by
  have h1 : ((lo : ℝ) : EReal) ≤ scale a := by
    unfold scale
    rw [lo_real, hi_real]
    exact le_min (EReal.coe_le_coe_iff.mpr lo_le) (le_max_left _ _)
  have h2 : scale a ≤ ((10000 : ℝ) : EReal) := by
    unfold scale
    rw [hi_real]
    exact min_le_left _ _
  obtain ⟨r, hr⟩ := real_of_between h1 h2
  refine ⟨r, ?_, hr⟩
  rw [hr, EReal.coe_le_coe_iff] at h1
  have := lo_pos
  intro h0
  linarith

/-- On a real, the straight-through form of the rounding is the rounding. -/
theorem ste_real (v : EReal) (hv : ∃ r : ℝ, v = r) :
    v + (Ideal.liftRound Ideal.roundHalfEven v - v) = Ideal.liftRound Ideal.roundHalfEven v := by
  obtain ⟨r, rfl⟩ := hv
  rw [Ideal.liftRound_coe, ← EReal.coe_sub, ← EReal.coe_add]
  congr 1
  ring

/-- The quotient of a real by the scale is a real. -/
theorem div_scale_real (a : EReal) (y : EReal) (hy : ∃ r : ℝ, y = r) : ∃ r : ℝ, Ideal.div y (scale a) = r := by
  obtain ⟨d, hd, ed⟩ := scale_real a
  obtain ⟨r, rfl⟩ := hy
  rw [ed, Ideal.div_coe hd, ← EReal.coe_mul]
  exact ⟨_, rfl⟩

/-- So with real `x` and `p` the two spellings of the group's arithmetic agree. -/
theorem quantSte_eq (mn a s x p : EReal) (hx : ∃ r : ℝ, x = r) (hp : ∃ r : ℝ, p = r) :
    quantSte mn a s x p = quant mn a s x p := by
  unfold quantSte quant
  rw [ste_real _ (div_scale_real a (x + p) (by
    obtain ⟨rx, rfl⟩ := hx
    obtain ⟨rp, rfl⟩ := hp
    exact ⟨rx + rp, (EReal.coe_add rx rp).symm⟩))]

/-! ## The whole grouped array -/

/-- The grouped shapes: 352256 groups of 128 lanes, and one column entry per group. -/
abbrev Rows : Shape := ⟨2, ![352256, 128]⟩
abbrev Cols : Shape := ⟨2, ![352256, 1]⟩

/-- The group an entry of the grouped array lies in. -/
abbrev groupOf (i : Rows.Idx) : Fin 352256 := ⟨(i 0).val, idx2_lt0 i⟩

/-- The quantizer over the whole grouped array: entry `i` from its group's minimum and parameters. -/
def G (X : Rows.Idx → EReal) (a s : Cols.Idx → EReal) (P : Rows.Idx → EReal) : Rows.Idx → EReal := fun i =>
  quant (rowMin fun l => X (ix2 (groupOf i) l)) (a (ix2 (groupOf i) (0 : Fin 1))) (s (ix2 (groupOf i) (0 : Fin 1))) (X i) (P i)

/-- The same in the straight-through spelling. -/
def GSte (X : Rows.Idx → EReal) (a s : Cols.Idx → EReal) (P : Rows.Idx → EReal) : Rows.Idx → EReal := fun i =>
  quantSte (rowMin fun l => X (ix2 (groupOf i) l)) (a (ix2 (groupOf i) (0 : Fin 1))) (s (ix2 (groupOf i) (0 : Fin 1))) (X i) (P i)

theorem G_apply (X : Rows.Idx → EReal) (a s : Cols.Idx → EReal) (P : Rows.Idx → EReal) (r : Fin 352256) (l : Fin 128) :
    G X a s P (ix2 r l)
      = quant (rowMin fun l' => X (ix2 r l')) (a (ix2 r (0 : Fin 1))) (s (ix2 r (0 : Fin 1))) (X (ix2 r l)) (P (ix2 r l)) := rfl

theorem GSte_apply (X : Rows.Idx → EReal) (a s : Cols.Idx → EReal) (P : Rows.Idx → EReal) (r : Fin 352256) (l : Fin 128) :
    GSte X a s P (ix2 r l)
      = quantSte (rowMin fun l' => X (ix2 r l')) (a (ix2 r (0 : Fin 1))) (s (ix2 r (0 : Fin 1))) (X (ix2 r l)) (P (ix2 r l)) := rfl

/-- Where every entry and every perturbation is a real, the two spellings are one array. -/
theorem GSte_eq (X : Rows.Idx → EReal) (a s : Cols.Idx → EReal) (P : Rows.Idx → EReal)
    (hX : ∀ i, ∃ r : ℝ, X i = r) (hP : ∀ i, ∃ r : ℝ, P i = r) : GSte X a s P = G X a s P :=
  funext fun i => quantSte_eq _ _ _ _ _ (hX i) (hP i)

end Cert.Quant

end
-- ==== Proof.Finite.lean ====
/-
  What the precondition gives: every entry of the input array and of the perturbation array is a real. The
  precondition is the conjunction of four `all(|a| < +∞)`, one per argument; an extended real whose absolute
  value is below +∞ is neither infinity.
-/
import proofs.«100982_j15796889714962_1_alg».proof.Pre_finite_inputs
import Idealize.ShloMosaic.PureOps.Ideal
import Idealize.ShloMosaic.Lib.ValueIdx
import Idealize.ShloMosaic.Lib.ReduceAll
import Idealize.ShloMosaic.Lib.Pipeline.Value

noncomputable section

namespace Cert.Finite

open Idealize.ShloMosaic Idealize.ShloMosaic.ValueIdx Cert.Pre_finite_inputs

variable [Cert.Pre_finite_inputs.Facts]
open Cert.Pre_finite_inputs.Facts

instance : Subsingleton S_.Idx := ⟨fun a b => funext fun d => d.elim0⟩

/-- The word the precondition compares against denotes +∞. -/
theorem inf_word : Ideal.ofBits .f32 0x7F800000#32 = ⊤ := by simp [Ideal.ofBits, Ideal.ieee]

/-- An extended real whose absolute value is below +∞ is a real. -/
theorem real_of_abs_lt (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

theorem finite_of_pre (a0 : FVec Ideal S4096x11008 .f32) (a1 a2 : FVec Ideal S352256x1 .f32) (a3 : FVec Ideal S352256x128 .f32)
    (h : fn (F := Ideal) a0 a1 a2 a3 = fun _ => 1#1) :
    (∀ i, ∃ r : ℝ, a0 i = r) ∧ (∀ i, ∃ r : ℝ, a3 i = r) := by
  have h0 := congrFun h ix0
  dsimp only [fn, fn_part1] at h0
  obtain ⟨h123, h4⟩ := IntOp.andi_eq_one.1 h0
  obtain ⟨h12, -⟩ := IntOp.andi_eq_one.1 h123
  obtain ⟨h1, -⟩ := IntOp.andi_eq_one.1 h12
  refine ⟨fun i => ?_, fun i => ?_⟩
  · have e := Host.reduce_andi_all _ _ _ _ ix0 h1 i
    have eb : broadcastInDim S4096x11008 ![] bcast_S_S4096x11008 (constant (F := Ideal) S_ .f32 0x7F800000#32) i
        = Ideal.ofBits .f32 0x7F800000#32 :=
      broadcastInDim_apply _ bcast_S_S4096x11008 _ i ix0 (fun a => a.elim0)
    have e' : Ideal.cmp .olt (max (a0 i) (-(a0 i)))
        (broadcastInDim S4096x11008 ![] bcast_S_S4096x11008 (constant (F := Ideal) S_ .f32 0x7F800000#32) i) = 1#1 := e
    rw [eb, inf_word] at e'
    exact real_of_abs_lt _ e'
  · have e := Host.reduce_andi_all _ _ _ _ ix0 h4 i
    have eb : broadcastInDim S352256x128 ![] bcast_S_S352256x128 (constant (F := Ideal) S_ .f32 0x7F800000#32) i
        = Ideal.ofBits .f32 0x7F800000#32 :=
      broadcastInDim_apply _ bcast_S_S352256x128 _ i ix0 (fun a => a.elim0)
    have e' : Ideal.cmp .olt (max (a3 i) (-(a3 i)))
        (broadcastInDim S352256x128 ![] bcast_S_S352256x128 (constant (F := Ideal) S_ .f32 0x7F800000#32) i) = 1#1 := e
    rw [eb, inf_word] at e'
    exact real_of_abs_lt _ e'

end Cert.Finite

end
-- ==== Proof.RefValue.lean ====
/-
  The reference, read at an index. Its 48 host operations compose to: reshape the input into groups of 128,
  take each group's minimum, compute the group's scale and rounded zero point, quantize every entry through the
  straight-through rounding, clip, dequantize, and reshape back. Before the last reshape, entry (g, l) is
  `quantSte` of group g's minimum and parameters and of the entry itself and its perturbation.
-/
import proofs.«100982_j15796889714962_1_alg».proof.Proof.Gen.ReferenceIdeal.Read
import proofs.«100982_j15796889714962_1_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.Quant
open Idealize.ShloMosaic Idealize.ShloMosaic.ValueIdx

variable (x0 : (⟨S4096x11008, .f32⟩ : BufTy).Contents (Elt Ideal))
  (x1 x2 : (⟨S352256x1, .f32⟩ : BufTy).Contents (Elt Ideal))
  (x3 : (⟨S352256x128, .f32⟩ : BufTy).Contents (Elt Ideal))

/-- Reducing the lane axis of the grouped array leaves one entry per group. -/
theorem red : S352256x128.Reduces [1] S352256 := by decide

/-- Group `r` with lane `l` inserted is entry (r, l). -/
theorem lift_eq (r : Fin 352256) (l : Fin 128) : red.lift (ix1 r) l = ix2 r l := by
  funext c; apply Fin.ext
  match c with
  | ⟨0, _⟩ => rfl
  | ⟨1, _⟩ => rfl

/-- The reference's min-reduce at group `r` is the minimum of the group's 128 entries. -/
theorem rowmin_eq (r : Fin 352256) :
    val_main_v1 (F := Ideal) x0 (ix1 r) = rowMin fun l => val_main_v0 (F := Ideal) x0 (ix2 r l) := by
  unfold val_main_v1 rowMin
  rw [Host.reduce_eq_fold_single FloatOps.minimumf _ _ reducesTo_S352256x128_S352256_d1 red h_S_]
  show Finset.fold FloatOps.minimumf (FloatOps.ofBits (F := Ideal) .f32 0x7F800000#32)
      (fun l => val_main_v0 (F := Ideal) x0 (red.lift (ix1 r) l)) Finset.univ = _
  exact congrArg (fun f => Finset.fold FloatOps.minimumf (FloatOps.ofBits (F := Ideal) .f32 0x7F800000#32) f Finset.univ)
    (funext fun l => congrArg (val_main_v0 (F := Ideal) x0) (lift_eq r l))

/-- A group's column entry read from the grouped position (r, l). -/
theorem col_idx (r : Fin 352256) (l : Fin 128) : idx_main_v12 (ix2 r l) = ix2 r (0 : Fin 1) := by
  funext a; match a with | ⟨0, _⟩ => rfl | ⟨1, _⟩ => rfl

theorem vec_idx (r : Fin 352256) : idx_main_v2 (ix2 r (0 : Fin 1)) = ix1 r := by
  funext a; match a with | ⟨0, _⟩ => rfl

/-- The reference's clipped scale of group r. -/
theorem scale_at (r : Fin 352256) : val_main_v5 (F := Ideal) x1 (ix2 r (0 : Fin 1)) = scale (x1 (ix2 r (0 : Fin 1))) := by
  rw [val_main_v5_apply, val_main_call0_v4_apply, val_main_call0_v3_apply, val_main_cst_2_apply, val_main_call0_v2_apply,
    val_main_call0_v1_apply, val_main_call0_v0_apply, val_main_cst_1_apply, val_main_v4_apply, val_main_v3_apply,
    val_main_cst_0_apply]
  rfl

/-- The reference's rounded zero point of group r. -/
theorem zp_at (r : Fin 352256) :
    val_main_v10 (F := Ideal) x0 x1 x2 (ix2 r (0 : Fin 1))
      = zeroPt (rowMin fun l => val_main_v0 (F := Ideal) x0 (ix2 r l)) (x1 (ix2 r (0 : Fin 1))) (x2 (ix2 r (0 : Fin 1))) := by
  rw [val_main_v10_apply, val_main_v9_apply, val_main_call1_v4_apply, val_main_call1_v3_apply, val_main_cst_4_apply,
    val_main_call1_v2_apply, val_main_call1_v1_apply, val_main_call1_v0_apply, val_main_cst_3_apply, val_main_v8_apply,
    val_main_v7_apply, val_main_v6_apply, val_main_v2_apply, vec_idx, rowmin_eq, scale_at]
  rfl

/-- The reference's quotient of a perturbed entry by its group's scale. -/
theorem quot_at (r : Fin 352256) (l : Fin 128) :
    val_main_v13 (F := Ideal) x0 x1 x3 (ix2 r l)
      = Ideal.div (val_main_v0 (F := Ideal) x0 (ix2 r l) + x3 (ix2 r l)) (scale (x1 (ix2 r (0 : Fin 1)))) := by
  rw [val_main_v13_apply, val_main_v12_apply, col_idx, scale_at, val_main_v11_apply]
  rfl

/-- The lower and upper clip words of the quantized value, read at an entry. -/
theorem clip_lo_at (i : S352256x128.Idx) : val_main_call4_v1 (F := Ideal) i = Ideal.ofBits .f32 0x00000000#32 := by
  rw [val_main_call4_v1_apply, val_main_call4_v0_apply, val_main_cst_5_apply]; rfl
theorem clip_hi_at (i : S352256x128.Idx) : val_main_call4_v4 (F := Ideal) i = Ideal.ofBits .f32 0x437F0000#32 := by
  rw [val_main_call4_v4_apply, val_main_call4_v3_apply, val_main_cst_6_apply]; rfl

/-- Before the final reshape, entry (r, l) of the reference is the group arithmetic in its straight-through
    spelling, of group r's minimum, its two parameters, the entry and its perturbation. -/
theorem rows_apply (r : Fin 352256) (l : Fin 128) :
    val_main_v23 (F := Ideal) x0 x1 x2 x3 (ix2 r l)
      = quantSte (rowMin fun l' => val_main_v0 (F := Ideal) x0 (ix2 r l')) (x1 (ix2 r (0 : Fin 1))) (x2 (ix2 r (0 : Fin 1)))
          (val_main_v0 (F := Ideal) x0 (ix2 r l)) (x3 (ix2 r l)) := by
  have e17 : idx_main_v17 (ix2 r l) = ix2 r (0 : Fin 1) := col_idx r l
  have e20 : idx_main_v20 (ix2 r l) = ix2 r (0 : Fin 1) := col_idx r l
  have e22 : idx_main_v22 (ix2 r l) = ix2 r (0 : Fin 1) := col_idx r l
  rw [val_main_v23_apply, val_main_v22_apply, e22, scale_at, val_main_v21_apply, val_main_v20_apply, e20, zp_at,
    val_main_v19_apply, clip_hi_at, val_main_call4_v2_apply, clip_lo_at, val_main_v18_apply, val_main_v17_apply, e17, zp_at,
    val_main_v16_apply, val_main_v15_apply, val_main_v14_apply, quot_at]
  rfl

/-- Before the final reshape the reference holds the whole-array quantizer, straight-through spelling, of the
    grouped first argument and the other three. -/
theorem grouped_eq : val_main_v23 (F := Ideal) x0 x1 x2 x3 = GSte (val_main_v0 (F := Ideal) x0) x1 x2 x3 := by
  funext i
  obtain ⟨r, l, rfl⟩ : ∃ (r : Fin 352256) (l : Fin 128), i = ix2 r l := ⟨i 0, i 1, eq_ix2 i⟩
  exact (rows_apply x0 x1 x2 x3 r l).trans (GSte_apply (val_main_v0 (F := Ideal) x0) x1 x2 x3 r l).symm

/-- With a real first argument and real perturbations, the reference's result is the directly rounded quantizer of
    the grouped first argument, reshaped back. -/
theorem result_eq (h0 : ∀ i, ∃ r : ℝ, x0 i = r) (h3 : ∀ i, ∃ r : ℝ, x3 i = r) :
    val_main_v24 (F := Ideal) x0 x1 x2 x3
      = shapeCast S4096x11008 (G (shapeCast S352256x128 x0 shapeCasts_S4096x11008_S352256x128) x1 x2 x3)
          shapeCasts_S352256x128_S4096x11008 := by
  unfold val_main_v24
  refine congrArg (fun y => shapeCast S4096x11008 y shapeCasts_S352256x128_S4096x11008) ?_
  rw [grouped_eq]
  exact GSte_eq (val_main_v0 (F := Ideal) x0) x1 x2 x3 (fun i => by rw [val_main_v0_apply]; exact h0 _) h3

end Cert.ReferenceIdeal.RefValue

end
-- ==== Proof.Payload.lean ====
/-
  The kernel body's one store, read at an index. The body loads a block of 2048 groups (the entries `x`, the
  perturbations `p`, the ranges `a` and the shifts `s`), takes each group's minimum over its 128 lanes,
  and stores, at entry (r, l), the group arithmetic `quant` of group r's minimum and parameters and of
  `x (r, l)`, `p (r, l)`. The column vectors [2048, 1] are read through their broadcasts along the lanes, the
  minimum through its reshape from [2048] to [2048, 1].
-/
import proofs.«100982_j15796889714962_1_alg».proof.Proof.Gen.KernelIdeal.Skeleton
import proofs.«100982_j15796889714962_1_alg».proof.Proof.Spec
import Idealize.ShloMosaic.PureOps.Ideal.Laws
import Idealize.ShloMosaic.Lib.ValueIdx
import Idealize.ShloMosaic.Lib.Pipeline.Value

noncomputable section

namespace Cert.KernelIdeal.Body

open Cert.KernelIdeal Cert.KernelIdeal.Gen Cert.Quant
open Idealize.ShloMosaic Idealize.ShloMosaic.ValueIdx

/-- A column [2048, 1] broadcast along the lanes reads, at (r, l), the column's entry r. -/
theorem bcast_col (y : FVec Ideal S2048x1 .f32) (r : Fin 2048) (l : Fin 128) :
    broadcastTo S2048x128 y broadcasts_S2048x1_S2048x128 (ix2 r l) = y (ix2 r (0 : Fin 1)) :=
  broadcastTo_apply y broadcasts_S2048x1_S2048x128 (ix2 r l) (ix2 r (0 : Fin 1)) (fun a => match a with
    | ⟨0, _⟩ => by show r.val = if (2048 : Nat) = 1 then 0 else r.val; rw [if_neg (by decide)]
    | ⟨1, _⟩ => by show 0 = if (1 : Nat) = 1 then 0 else l.val; rw [if_pos rfl])

/-- A vector [2048] reshaped to a column reads, at (r, 0), the vector's entry r. -/
theorem col_of_vec (y : FVec Ideal S2048 .f32) (r : Fin 2048) :
    shapeCast S2048x1 y shapeCasts_S2048_S2048x1 (ix2 r (0 : Fin 1)) = y (ix1 r) :=
  shapeCast_apply y shapeCasts_S2048_S2048x1 (ix2 r (0 : Fin 1)) (ix1 r) (by
    rw [Shape.rowMajor_val_one, Shape.rowMajor_val_two]
    show r.val = r.val * 1 + 0
    omega)

/-- Group `r` of a block with lane `l` inserted is entry (r, l). -/
theorem lift_eq (r : Fin 2048) (l : Fin 128) :
    (reduces_S2048x128_S2048 : S2048x128.Reduces [1] S2048).lift (ix1 r) l = ix2 r l := by
  funext c; apply Fin.ext
  match c with
  | ⟨0, _⟩ => rfl
  | ⟨1, _⟩ => rfl

/-- The body's lane reduction at group `r` is the minimum of the group's 128 entries. -/
theorem rowmin_eq (v : FVec Ideal S2048x128 .f32) (hφ : FKind.Formats .f32)
    (hacc : (0x7F800000#32 : BitVec 32) = 0x7F800000#32) (r : Fin 2048) :
    multiReduction .minimumf [1] S2048 v 0x7F800000#32 reduces_S2048x128_S2048 hφ hacc (ix1 r)
      = rowMin fun l => v (ix2 r l) := by
  unfold rowMin
  refine (multiReduction_minimumf_eq_fold v _ reduces_S2048x128_S2048 hφ hacc (ix1 r)).trans ?_
  refine (Shape.Reduces.fold_filter_drop_single reduces_S2048x128_S2048 _ _ v (ix1 r)).trans ?_
  exact congrArg (fun f => Finset.fold FloatOps.minimumf (FloatOps.ofBits (F := Ideal) .f32 0x7F800000#32) f Finset.univ)
    (funext fun l => congrArg v (lift_eq r l))

/-- A rounding at an index rounds the element. -/
theorem roundeven_apply {s : Shape} (v : FVec Ideal s .f32) (i : s.Idx) :
    roundeven v i = Ideal.liftRound Ideal.roundHalfEven (v i) := rfl

/-- THE STORE AT AN ENTRY: the group arithmetic of the loaded blocks. -/
theorem pay_apply (x p : Vec Ideal S2048x128 .f32) (a s : Vec Ideal S2048x1 .f32) (r : Fin 2048) (l : Fin 128) :
    k0_pay1 (F := Ideal) x p a s (ix2 r l)
      = quant (rowMin fun l' => x (ix2 r l')) (a (ix2 r (0 : Fin 1))) (s (ix2 r (0 : Fin 1))) (x (ix2 r l)) (p (ix2 r l)) := by
  unfold k0_pay1
  simp only [mulf_apply, subf_apply, minimumf_apply, maximumf_apply, addf_apply, divf_apply, broadcast_apply, bcast_col,
    shapeCast_self, roundeven_apply, col_of_vec, rowmin_eq, Ideal.ofBits_def, zero_word_sub]
  unfold quant zeroPt scale
  rw [rowmin_eq x _ _ r]

end Cert.KernelIdeal.Body

end
-- ==== Proof.KernelValue.lean ====
/-
  The kernel's result array. The pipeline visits 172 grid points; point t stages rows 2048·t … 2048·t + 2047 of
  the grouped input, of the two parameter columns and of the perturbation, and writes back the same rows of the
  output. Each written block is the restriction of one whole-array function, the quantizer `G` of the grouped
  input and the three other arguments; the 172 blocks tile the output, so after the run the output array is `G`
  of them. The grouped input is the reshape of the first argument (the host line before the region), and the
  program's result is the reshape of the output array (the host line after it).
-/
import proofs.«100982_j15796889714962_1_alg».proof.Proof.Gen.KernelIdeal.Frame
import proofs.«100982_j15796889714962_1_alg».proof.Proof.Payload
import proofs.«100982_j15796889714962_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.Whole

open Cert.KernelIdeal Cert.KernelIdeal.Gen Cert.KernelIdeal.Body Cert.Quant
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The index maps, decided over the grid: every window's row block at point t is block t, its lane block 0. -/
theorem blocks_at : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The whole-array function the output ends at, of the arrays as the region finds them. -/
abbrev target (c : Dev nD) : S352256x128.Idx → EReal :=
  G (V m c main_v0) (V m c main_arg1) (V m c main_arg2) (V m c main_arg3)

/-- Row r of point t's block is row 2048·t + r of the grouped array. -/
abbrev rowAt (t : Fin cfg0.N) (r : Fin 2048) : Fin 352256 :=
  ⟨t.val * 2048 + r.val, by have ht : t.val < 172 := lt_of_lt_of_eq t.isLt N_0; have := r.isLt; omega⟩

/-- The staged input block at (r, l) is the grouped input at (2048·t + r, l). -/
theorem read_x (c : Dev nD) (t : Fin cfg0.N) (r : Fin 2048) (l : Fin 128) :
    iblk m c 0 t (ix2 r l) = V m c main_v0 (ix2 (rowAt t r) l) := by
  obtain ⟨e0, e1, -⟩ := blocks_at t
  show V m c main_v0 (((cfg0.win 0).blk t).view.emb (ix2 r l)) = _
  refine congrArg (V m c main_v0) ?_
  funext a; apply Fin.ext
  match a with
  | ⟨0, _⟩ => show win0_0.index t (0 : Fin 2) * 2048 + 1 * r.val = t.val * 2048 + r.val; omega
  | ⟨1, _⟩ => show win0_0.index t (1 : Fin 2) * 128 + 1 * l.val = l.val; omega

/-- The staged range column at (r, 0) is the range of group 2048·t + r. -/
theorem read_a (c : Dev nD) (t : Fin cfg0.N) (r : Fin 2048) :
    iblk m c 1 t (ix2 r (0 : Fin 1)) = V m c main_arg1 (ix2 (rowAt t r) (0 : Fin 1)) := by
  obtain ⟨-, -, e0, e1, -⟩ := blocks_at t
  show V m c main_arg1 (((cfg0.win 1).blk t).view.emb (ix2 r (0 : Fin 1))) = _
  refine congrArg (V m c main_arg1) ?_
  funext a; apply Fin.ext
  match a with
  | ⟨0, _⟩ => show win0_1.index t (0 : Fin 2) * 2048 + 1 * r.val = t.val * 2048 + r.val; omega
  | ⟨1, _⟩ => show win0_1.index t (1 : Fin 2) * 1 + 1 * 0 = 0; omega

/-- The staged shift column at (r, 0) is the shift of group 2048·t + r. -/
theorem read_s (c : Dev nD) (t : Fin cfg0.N) (r : Fin 2048) :
    iblk m c 2 t (ix2 r (0 : Fin 1)) = V m c main_arg2 (ix2 (rowAt t r) (0 : Fin 1)) := by
  obtain ⟨-, -, -, -, e0, e1, -⟩ := blocks_at t
  show V m c main_arg2 (((cfg0.win 2).blk t).view.emb (ix2 r (0 : Fin 1))) = _
  refine congrArg (V m c main_arg2) ?_
  funext a; apply Fin.ext
  match a with
  | ⟨0, _⟩ => show win0_2.index t (0 : Fin 2) * 2048 + 1 * r.val = t.val * 2048 + r.val; omega
  | ⟨1, _⟩ => show win0_2.index t (1 : Fin 2) * 1 + 1 * 0 = 0; omega

/-- The staged perturbation block at (r, l) is the perturbation at (2048·t + r, l). -/
theorem read_p (c : Dev nD) (t : Fin cfg0.N) (r : Fin 2048) (l : Fin 128) :
    iblk m c 3 t (ix2 r l) = V m c main_arg3 (ix2 (rowAt t r) l) := by
  obtain ⟨-, -, -, -, -, -, e0, e1, -⟩ := blocks_at t
  show V m c main_arg3 (((cfg0.win 3).blk t).view.emb (ix2 r l)) = _
  refine congrArg (V m c main_arg3) ?_
  funext a; apply Fin.ext
  match a with
  | ⟨0, _⟩ => show win0_3.index t (0 : Fin 2) * 2048 + 1 * r.val = t.val * 2048 + r.val; omega
  | ⟨1, _⟩ => show win0_3.index t (1 : Fin 2) * 128 + 1 * l.val = l.val; omega

/-- The output block's position (r, l) at point t is (2048·t + r, l) of the output array. -/
theorem out_pos (t : Fin cfg0.N) (r : Fin 2048) (l : Fin 128) :
    ((cfg0.win 4).blk t).view.emb (ix2 r l) = ix2 (rowAt t r) l := by
  obtain ⟨-, -, -, -, -, -, -, -, e0, e1⟩ := blocks_at t
  funext a; apply Fin.ext
  match a with
  | ⟨0, _⟩ => show win0_4.index t (0 : Fin 2) * 2048 + 1 * r.val = t.val * 2048 + r.val; omega
  | ⟨1, _⟩ => show win0_4.index t (1 : Fin 2) * 128 + 1 * l.val = l.val; omega

/-- What the body stores at (r, l) of point t is the quantizer at (2048·t + r, l). -/
theorem stored_at (c : Dev nD) (t : Fin cfg0.N) (r : Fin 2048) (l : Fin 128) :
    k0_pay1 (F := Ideal) (iblk m c 0 t) (iblk m c 3 t) (iblk m c 1 t) (iblk m c 2 t) (ix2 r l)
      = target m c (ix2 (rowAt t r) l) := by
  have hx : ((fun l' => iblk m c 0 t (ix2 r l')) : Fin 128 → EReal) = fun l' => V m c main_v0 (ix2 (rowAt t r) l') :=
    funext fun l' => read_x m c t r l'
  refine (pay_apply (iblk m c 0 t) (iblk m c 3 t) (iblk m c 1 t) (iblk m c 2 t) r l).trans ?_
  refine Eq.trans ?_ (G_apply (V m c main_v0) (V m c main_arg1) (V m c main_arg2) (V m c main_arg3) (rowAt t r) l).symm
  exact congr (congr (congr (congr (congrArg quant (congrArg rowMin hx)) (read_a m c t r)) (read_s m c t r))
    (read_x m c t r l)) (read_p m c t r l)

/-- WHAT POINT t WRITES BACK is block t of the quantizer of the arrays as the region finds them. -/
theorem flushed_eq (c : Dev nD) (t : Fin cfg0.N) :
    (dats m 0 c).flushed 4 t = ((cfg0.win 4).blk t).view.read (Elt Ideal) (target m c) := by
  show (cfg0.win 4).cut (grid0.coords t) ((dats m 0 c).after 4 t) = _
  rw [after0_4]
  unfold out0_4
  rw [View.canon_unit_zero zero_off]
  simp only [View.ld_unit_zero (S := S2048x128) zero_off, View.ld_unit_zero (S := S2048x1) zero_off]
  funext j
  obtain ⟨r, l, rfl⟩ : ∃ (r : Fin 2048) (l : Fin 128), j = ix2 r l := ⟨j 0, j 1, eq_ix2 j⟩
  show k0_pay1 (F := Ideal) (iblk m c 0 t) (iblk m c 3 t) (iblk m c 1 t) (iblk m c 2 t) (ix2 r l)
    = target m c (((cfg0.win 4).blk t).view.emb (ix2 r l))
  rw [out_pos t r l]
  exact stored_at m c t r l

/-- An entry of the output array is in point t's block iff each coordinate is in the block's range. -/
theorem mem_blk (t : Fin cfg0.N) (i : S352256x128.Idx) :
    i ∈ ((cfg0.win 4).blk t).view.set ↔ ∀ a : Fin 2, win0_4.index t a * S2048x128.size a ≤ (i a).val
      ∧ (i a).val < win0_4.index t a * S2048x128.size a + S2048x128.size a := by
  show i ∈ ((View.whole main_v1).slice (win0_4.rect t)).set ↔ _
  rw [View.set_slice_whole, Rect.mem_set_unit]
  exact Iff.rfl

/-- Every entry of the output array lies in the block of the point its row's quotient by 2048 names. -/
theorem covered (i : S352256x128.Idx) :
    ∃ t : Fin cfg0.N, (cfg0.win 4).flush t = true ∧ i ∈ ((cfg0.win 4).blk t).view.set := by
  have hi0 : (i 0).val < 352256 := idx2_lt0 i
  have hi1 : (i 1).val < 128 := idx2_lt1 i
  have ht : (i 0).val / 2048 < cfg0.N := lt_of_lt_of_eq (by omega : (i 0).val / 2048 < 172) N_0.symm
  refine ⟨⟨(i 0).val / 2048, ht⟩, flush0_4 _, ?_⟩
  rw [mem_blk]
  obtain ⟨-, -, -, -, -, -, -, -, e0, e1⟩ := blocks_at ⟨(i 0).val / 2048, ht⟩
  have e0' : win0_4.index ⟨(i 0).val / 2048, ht⟩ (0 : Fin 2) = (i 0).val / 2048 := e0
  intro a
  match a with
  | ⟨0, _⟩ =>
    show win0_4.index ⟨(i 0).val / 2048, ht⟩ (0 : Fin 2) * 2048 ≤ (i 0).val
      ∧ (i 0).val < win0_4.index ⟨(i 0).val / 2048, ht⟩ (0 : Fin 2) * 2048 + 2048
    omega
  | ⟨1, _⟩ =>
    show win0_4.index ⟨(i 0).val / 2048, ht⟩ (1 : Fin 2) * 128 ≤ (i 1).val
      ∧ (i 1).val < win0_4.index ⟨(i 0).val / 2048, ht⟩ (1 : Fin 2) * 128 + 128
    omega

/-- THE OUTPUT ARRAY after the run is the quantizer of the arrays as the region finds them. -/
theorem final (c : Dev nD) : (dats m 0 c).arrAt 4 cfg0.N = target m c :=
  (dats m 0 c).arrAt_eq_of_cover 4 (target m c) (fun t _ => flushed_eq m c t) covered

/-- The grouped input the region finds is the reshape of the first argument. -/
theorem grouped (c : Dev nD) :
    (V m c main_v0 : S352256x128.Idx → EReal)
      = shapeCast S352256x128 (m ((c : Thread nD τ).loc main_arg0)) shapeCasts_S4096x11008_S352256x128 := by
  show StableHlo.after hostOps0 (fun b => m (c, b)) (Proc.devRef .tc main_v0) = _
  after_results
  rfl

/-- The program's result, as a function of the launch memory: the quantizer of the grouped first argument and
    the other three, reshaped back. -/
abbrev result (c : Dev nD) : S4096x11008.Idx → EReal :=
  shapeCast S4096x11008
    (G (shapeCast S352256x128 (m ((c : Thread nD τ).loc main_arg0)) shapeCasts_S4096x11008_S352256x128)
      (m ((c : Thread nD τ).loc main_arg1)) (m ((c : Thread nD τ).loc main_arg2)) (m ((c : Thread nD τ).loc main_arg3)))
    shapeCasts_S352256x128_S4096x11008

/-- The quantizer of the arrays as the region finds them, in terms of the launch memory. -/
theorem target_eq (c : Dev nD) :
    target m c = G (shapeCast S352256x128 (m ((c : Thread nD τ).loc main_arg0)) shapeCasts_S4096x11008_S352256x128)
      (m ((c : Thread nD τ).loc main_arg1)) (m ((c : Thread nD τ).loc main_arg2)) (m ((c : Thread nD τ).loc main_arg3)) := by
  show G (V m c main_v0) (V m c main_arg1) (V m c main_arg2) (V m c main_arg3) = _
  rw [grouped m c, V_main_arg1 m c, V_main_arg2 m c, V_main_arg3 m c]

/-- The host line after the region reshapes the output array into the result. -/
theorem tail_eq (c : Dev nD) :
    Pipeline.afterTail₀ cfgs (dats m) 0 (V0 m) [hostOps1] c main_v2 = result m c := by
  have hw : Pipeline.withArrays (cfgs 0).spec c (V0 m c) (fun w => (dats m 0 c).arrAt w (cfgs 0).N) (Proc.devRef .tc main_v1)
      = G (shapeCast S352256x128 (m ((c : Thread nD τ).loc main_arg0)) shapeCasts_S4096x11008_S352256x128)
          (m ((c : Thread nD τ).loc main_arg1)) (m ((c : Thread nD τ).loc main_arg2)) (m ((c : Thread nD τ).loc main_arg3)) :=
    ((Pipeline.withArrays_arr spec0 launch0.win.arr_inj c _ _ 4).trans (final m c)).trans (target_eq m c)
  unfold Pipeline.afterTail₀
  show StableHlo.after hostOps1 _ (Proc.devRef .tc main_v2) = _
  after_results
  exact congrArg (fun y : S352256x128.Idx → EReal => shapeCast S4096x11008 y shapeCasts_S352256x128_S4096x11008) hw

/-- THE RUN: every weakly fair execution ends with the result array at the reshaped quantizer of the grouped
    first argument and the other three, and the four arguments as launched. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Whole

end
-- ==== Proof.lean ====
/-
  The affine fake quantizer, kernel against reference, over the extended reals.

  Both programs reshape the input x[4096, 11008] into 352256 groups of 128 entries, and for each group take its
  minimum, clip its range over 255 to [1e-5, 1e4] (the scale), round the clipped quotient of minus (minimum plus
  shift) by the scale (the zero point), then map every perturbed entry to
  (clip(round((x + p) / scale) + zp, 0, 255) - zp) * scale and reshape back. Every float literal is the same word
  on both sides; the kernel divides and rounds where the reference does.

  Two spellings differ. The kernel negates by subtracting from the zero word, which is negation since that word
  denotes 0. The reference rounds straight-through, `v + (round v - v)`, which is `round v` only where `v` is
  real: at an infinity `v - v` is junk. Here `v = (x + p) / scale` with the scale clipped between two positive
  reals, so `v` is real whenever `x` and `p` are, and that is what the precondition (all inputs finite) gives.

  The kernel side: the pipeline's 172 points each write back one block of 2048 groups, the restriction of one
  whole-array function, and the blocks tile the output array; the host reshapes around the region are read
  directly. The reference side: its run, operation by operation, read at an index.

  The three frames are the generated ones; the ideal pass rewrote nothing, so `preserves` is `True`.
-/
import proofs.«100982_j15796889714962_1_alg».proof.Defs
import proofs.«100982_j15796889714962_1_alg».proof.Proof.Gen.Kernel
import proofs.«100982_j15796889714962_1_alg».proof.Proof.Gen.Kernel.Skeleton
import proofs.«100982_j15796889714962_1_alg».proof.Proof.Gen.Kernel.Launch
import proofs.«100982_j15796889714962_1_alg».proof.Proof.Gen.Kernel.Points
import proofs.«100982_j15796889714962_1_alg».proof.Proof.Gen.Kernel.Frame
import proofs.«100982_j15796889714962_1_alg».proof.Proof.Gen.KernelIdeal
import proofs.«100982_j15796889714962_1_alg».proof.Proof.Gen.KernelIdeal.Skeleton
import proofs.«100982_j15796889714962_1_alg».proof.Proof.Gen.KernelIdeal.Launch
import proofs.«100982_j15796889714962_1_alg».proof.Proof.Gen.KernelIdeal.Points
import proofs.«100982_j15796889714962_1_alg».proof.Proof.Gen.KernelIdeal.Frame
import proofs.«100982_j15796889714962_1_alg».proof.Proof.Gen.ReferenceIdeal
import proofs.«100982_j15796889714962_1_alg».proof.Proof.Gen.Pre_finite_inputs
import proofs.«100982_j15796889714962_1_alg».proof.Proof.Gen.ReferenceIdeal.Run
import proofs.«100982_j15796889714962_1_alg».proof.Proof.Gen.ReferenceIdeal.Read
import proofs.«100982_j15796889714962_1_alg».proof.Proof.Spec
import proofs.«100982_j15796889714962_1_alg».proof.Proof.Finite
import proofs.«100982_j15796889714962_1_alg».proof.Proof.RefValue
import proofs.«100982_j15796889714962_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the reshaped quantizer of the grouped first argument and the other three: the kernel
    by its blocks, the reference by its run read at an index and, where it rounds straight-through, by the
    finiteness of the input and the perturbation. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h3⟩ := Cert.Finite.finite_of_pre _ _ _ _ (hpre c)
  rw [Cert.ReferenceIdeal.Read.val_main_v24_eq, (hagree c).1, (hagree c).2.1, (hagree c).2.2.1, (hagree c).2.2.2]
  exact Cert.ReferenceIdeal.RefValue.result_eq _ _ _ _ h0 h3

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
